-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x64 : Shape := ⟨3, ![32, 8192, 64]⟩
abbrev S32 : Shape := ⟨1, ![32]⟩
abbrev S_ : Shape := ⟨0, ![]⟩

class Facts : Prop where
  bcast_S_S32x8192x64 : S_.BroadcastsInDim S32x8192x64 (![] : Fin 0 → Fin S32x8192x64.rank)
  reducesTo_S32x8192x64_S_d0_1_2 : S32x8192x64.ReducesTo [0, 1, 2] S_
  h_S_ : 0 < S_.numel

variable [Facts]

def fn {F : FTy → Type} [FloatOps F] (main_arg0 : FVec F S32x8192x64 .f32) (main_arg1 : IVec S32 32) : IVec S_ 1 :=
  let main_v0 : FVec F S32x8192x64 .f32 := Host.absf main_arg0
  let main_cst : FVec F S_ .f32 := constant S_ .f32 0x7F800000#32
  let main_v1 : FVec F S32x8192x64 .f32 := broadcastInDim S32x8192x64 ![] bcast_S_S32x8192x64 main_cst
  let main_v2 : IVec S32x8192x64 1 := cmpf .olt main_v0 main_v1
  let main_c : IVec S_ 1 := constantI S_ 1 1#1
  let main_v3 : IVec S_ 1 := (fun x v => Host.reduce IntOp.andi x v reducesTo_S32x8192x64_S_d0_1_2 h_S_) main_v2 main_c
  main_v3
-- ==== Kernel.lean ====
abbrev S32x8192x64 : Shape := ⟨3, ![32, 8192, 64]⟩
abbrev S32 : Shape := ⟨1, ![32]⟩
abbrev S32x64 : Shape := ⟨2, ![32, 64]⟩
abbrev S8x1024x64 : Shape := ⟨3, ![8, 1024, 64]⟩
abbrev S8x64 : Shape := ⟨2, ![8, 64]⟩
abbrev S8x1024 : Shape := ⟨2, ![8, 1024]⟩
abbrev S8x1024x1 : Shape := ⟨3, ![8, 1024, 1]⟩
abbrev S32x1 : Shape := ⟨2, ![32, 1]⟩
abbrev S1x8 : Shape := ⟨2, ![1, 8]⟩
abbrev S32x8 : Shape := ⟨2, ![32, 8]⟩
abbrev S8x32 : Shape := ⟨2, ![8, 32]⟩
abbrev S_ : Shape := ⟨0, ![]⟩
abbrev S8 : Shape := ⟨1, ![8]⟩
abbrev S8x1 : Shape := ⟨2, ![8, 1]⟩
abbrev S64 : Shape := ⟨1, ![64]⟩
abbrev S1x64 : Shape := ⟨2, ![1, 64]⟩

abbrev nBuf : Space → Nat
  | .hbm => 53
  | .vmem => 5
  | .smem => 0
  | _ => 0

abbrev bufTy : (tb : Table) → Fin (tcTables nBuf tb) → BufTy
  | .hbm, ⟨0, _⟩ => ⟨S32x8192x64, .f32⟩
  | .hbm, ⟨1, _⟩ => ⟨S32, .i32⟩
  | .hbm, ⟨2, _⟩ => ⟨S32x64, .f32⟩
  | .hbm, ⟨3, _⟩ => ⟨S32x1, .i32⟩
  | .hbm, ⟨4, _⟩ => ⟨S1x8, .i32⟩
  | .hbm, ⟨5, _⟩ => ⟨S32x8, .i32⟩
  | .hbm, ⟨6, _⟩ => ⟨S32x8, .i32⟩
  | .hbm, ⟨7, _⟩ => ⟨S32x8, .i1⟩
  | .hbm, ⟨8, _⟩ => ⟨S32x8, .f32⟩
  | .hbm, ⟨9, _⟩ => ⟨S8x32, .f32⟩
  | .hbm, ⟨10, _⟩ => ⟨S8x64, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8x1, .f32⟩
  | .hbm, ⟨17, _⟩ => ⟨S8x64, .f32⟩
  | .hbm, ⟨18, _⟩ => ⟨S8x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x64, .f32⟩
  | .hbm, ⟨26, _⟩ => ⟨S8x64, .f32⟩
  | .hbm, ⟨27, _⟩ => ⟨S_, .f32⟩
  | .hbm, ⟨28, _⟩ => ⟨S8, .f32⟩
  | .hbm, ⟨29, _⟩ => ⟨S8x1, .f32⟩
  | .hbm, ⟨30, _⟩ => ⟨S_, .f32⟩
  | .hbm, ⟨31, _⟩ => ⟨S8x1, .f32⟩
  | .hbm, ⟨32, _⟩ => ⟨S8x1, .f32⟩
  | .hbm, ⟨33, _⟩ => ⟨S_, .f32⟩
  | .hbm, ⟨34, _⟩ => ⟨S64, .f32⟩
  | .hbm, ⟨35, _⟩ => ⟨S1x64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S8x64, .f32⟩
  | .hbm, ⟨40, _⟩ => ⟨S8x64, .f32⟩
  | .hbm, ⟨41, _⟩ => ⟨S8x64, .f32⟩
  | .hbm, ⟨42, _⟩ => ⟨S8x64, .f32⟩
  | .hbm, ⟨43, _⟩ => ⟨S_, .f32⟩
  | .hbm, ⟨44, _⟩ => ⟨S8x64, .f32⟩
  | .hbm, ⟨45, _⟩ => ⟨S8x64, .f32⟩
  | .hbm, ⟨46, _⟩ => ⟨S8x64, .f32⟩
  | .hbm, ⟨47, _⟩ => ⟨S8x64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S8x1024x64, .f32⟩
  | .local _ .vmem, ⟨1, _⟩ => ⟨S8x1024x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | _, _ => ⟨S32x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_9 : BitVec 32 := 0#32
  let v21 : BitVec 1 := Scalar.cmpi .ne v20 c0_i32_9
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x1024x64_S8x1024x64_0_0_0 : ∀ a, (![0, 0, 0] : Fin 3 → Nat) a + S8x1024x64.size a ≤ S8x1024x64.size a
  h_S8x1024x64 : 0 < S8x1024x64.numel
  reduces_S8x1024x64_S8x1024 : S8x1024x64.Reduces [2] S8x1024
  shapeCasts_S8x1024_S8x1024x1 : S8x1024.ShapeCasts S8x1024x1
  broadcasts_S8x1024x1_S8x1024x64 : S8x1024x1.Broadcasts S8x1024x64
  reduces_S8x1024x64_S8x64 : S8x1024x64.Reduces [1] S8x64
  bcast_S32_S32x1_0 : S32.BroadcastsInDim S32x1 (![0] : Fin 1 → Fin S32x1.rank)
  bcast_S32x1_S32x8_0_1 : S32x1.BroadcastsInDim S32x8 (![0, 1] : Fin 2 → Fin S32x8.rank)
  bcast_S1x8_S32x8_0_1 : S1x8.BroadcastsInDim S32x8 (![0, 1] : Fin 2 → Fin S32x8.rank)
  transposes_S32x8_S8x32_1_0 : S32x8.Transposes [1, 0] S8x32
  reducesTo_S32x8_S8_d0 : S32x8.ReducesTo [0] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  reducesTo_S8x64_S_d0_1 : S8x64.ReducesTo [0, 1] S_
  bcast_S_S8x64 : S_.BroadcastsInDim S8x64 (![] : Fin 0 → Fin S8x64.rank)
  reducesTo_S8x64_S8_d1 : S8x64.ReducesTo [1] S8
  bcast_S_S8x1 : S_.BroadcastsInDim S8x1 (![] : Fin 0 → Fin S8x1.rank)
  reducesTo_S8x64_S64_d0 : S8x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S8x64_0_1 : S1x64.BroadcastsInDim S8x64 (![0, 1] : Fin 2 → Fin S8x64.rank)
  dot_S8x32_S32x64_S8x64_1_0_0_1_n_n_wf : DotDims.WF S8x32 S32x64 S8x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x64.size a ≤ S32x8192x64.size a
  hwx0_0 : ∀ i : grid0.Coords, EltTy.bits .f32 = 32 ∨ (Rect.block (s := S32x8192x64) S8x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S32x64.size a
  hwx0_1 : ∀ i : grid0.Coords, EltTy.bits .f32 = 32 ∨ (Rect.block (s := S32x64) S8x64.size (cc0_transform_1 i) (hinb0_1 i)).WholeWords (EltTy.packing .f32)

variable [Facts₀]

def dot_S8x32_S32x64_S8x64_1_0_0_1_n_n : DotDims S8x32 S32x64 S8x64 where
  lhsContracting := [1]
  rhsContracting := [0]
  lhsNonContracting := [0]
  rhsNonContracting := [1]
  lhsBatch := []
  rhsBatch := []
  wf := dot_S8x32_S32x64_S8x64_1_0_0_1_n_n_wf

abbrev win0_0 : Pipeline.Window sig grid0 :=
  Pipeline.Window.ofSpec (Memref.whole main_arg0) S8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x8192x64 : Shape := ⟨3, ![32, 8192, 64]⟩
abbrev S32 : Shape := ⟨1, ![32]⟩
abbrev S_ : Shape := ⟨0, ![]⟩
abbrev S32x8192 : Shape := ⟨2, ![32, 8192]⟩
abbrev S32x8192x1 : Shape := ⟨3, ![32, 8192, 1]⟩
abbrev S262144x64 : Shape := ⟨2, ![262144, 64]⟩
abbrev S262144 : Shape := ⟨1, ![262144]⟩
abbrev S8x64 : Shape := ⟨2, ![8, 64]⟩
abbrev S262144x1 : Shape := ⟨2, ![262144, 1]⟩
abbrev S8 : Shape := ⟨1, ![8]⟩
abbrev S8x1 : Shape := ⟨2, ![8, 1]⟩
abbrev S64 : Shape := ⟨1, ![64]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S32x8192x64, .f32⟩
  | .hbm, ⟨1, _⟩ => ⟨S32, .i32⟩
  | .hbm, ⟨2, _⟩ => ⟨S_, .f32⟩
  | .hbm, ⟨3, _⟩ => ⟨S32x8192, .f32⟩
  | .hbm, ⟨4, _⟩ => ⟨S_, .f32⟩
  | .hbm, ⟨5, _⟩ => ⟨S32x8192, .f32⟩
  | .hbm, ⟨6, _⟩ => ⟨S32x8192, .f32⟩
  | .hbm, ⟨7, _⟩ => ⟨S32x8192x1, .f32⟩
  | .hbm, ⟨8, _⟩ => ⟨S32x8192x64, .f32⟩
  | .hbm, ⟨9, _⟩ => ⟨S32x8192x64, .f32⟩
  | .hbm, ⟨10, _⟩ => ⟨S32x8192x64, .f32⟩
  | .hbm, ⟨11, _⟩ => ⟨S_, .f32⟩
  | .hbm, ⟨12, _⟩ => ⟨S32x8192, .f32⟩
  | .hbm, ⟨13, _⟩ => ⟨S32x8192x1, .f32⟩
  | .hbm, ⟨14, _⟩ => ⟨S32x8192x64, .f32⟩
  | .hbm, ⟨15, _⟩ => ⟨S32x8192x64, .f32⟩
  | .hbm, ⟨16, _⟩ => ⟨S262144x64, .f32⟩
  | .hbm, ⟨17, _⟩ => ⟨S32x8192, .i32⟩
  | .hbm, ⟨18, _⟩ => ⟨S262144, .i32⟩
  | .hbm, ⟨19, _⟩ => ⟨S_, .f32⟩
  | .hbm, ⟨20, _⟩ => ⟨S8x64, .f32⟩
  | .hbm, ⟨21, _⟩ => ⟨S262144x1, .i32⟩
  | .hbm, ⟨22, _⟩ => ⟨S8x64, .f32⟩
  | .hbm, ⟨23, _⟩ => ⟨S_, .f32⟩
  | .hbm, ⟨24, _⟩ => ⟨S262144, .f32⟩
  | .hbm, ⟨25, _⟩ => ⟨S_, .f32⟩
  | .hbm, ⟨26, _⟩ => ⟨S8, .f32⟩
  | .hbm, ⟨27, _⟩ => ⟨S262144x1, .i32⟩
  | .hbm, ⟨28, _⟩ => ⟨S8, .f32⟩
  | .hbm, ⟨29, _⟩ => ⟨S8x1, .f32⟩
  | .hbm, ⟨30, _⟩ => ⟨S8x64, .f32⟩
  | .hbm, ⟨31, _⟩ => ⟨S8x64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x64, .f32⟩
  | .hbm, ⟨39, _⟩ => ⟨S8x64, .f32⟩
  | .hbm, ⟨40, _⟩ => ⟨S_, .f32⟩
  | .hbm, ⟨41, _⟩ => ⟨S8, .f32⟩
  | .hbm, ⟨42, _⟩ => ⟨S8x1, .f32⟩
  | .hbm, ⟨43, _⟩ => ⟨S_, .f32⟩
  | .hbm, ⟨44, _⟩ => ⟨S8x1, .f32⟩
  | .hbm, ⟨45, _⟩ => ⟨S8x1, .f32⟩
  | .hbm, ⟨46, _⟩ => ⟨S_, .f32⟩
  | .hbm, ⟨47, _⟩ => ⟨S64, .f32⟩
  | .hbm, ⟨48, _⟩ => ⟨S1x64, .f32⟩
  | .hbm, ⟨49, _⟩ => ⟨S_, .f32⟩
  | .hbm, ⟨50, _⟩ => ⟨S1x64, .f32⟩
  | .hbm, ⟨51, _⟩ => ⟨S1x64, .f32⟩
  | .hbm, ⟨52, _⟩ => ⟨S8x64, .f32⟩
  | .hbm, ⟨53, _⟩ => ⟨S8x64, .f32⟩
  | .hbm, ⟨54, _⟩ => ⟨S8x64, .f32⟩
  | .hbm, ⟨55, _⟩ => ⟨S8x64, .f32⟩
  | .hbm, ⟨56, _⟩ => ⟨S_, .f32⟩
  | .hbm, ⟨57, _⟩ => ⟨S8x64, .f32⟩
  | .hbm, ⟨58, _⟩ => ⟨S8x64, .f32⟩
  | .hbm, ⟨59, _⟩ => ⟨S8x64, .f32⟩
  | .hbm, ⟨60, _⟩ => ⟨S8x64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S32x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_cst_11 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_v46 : Ref sig .tc := ⟨.hbm, 63, rfl⟩
abbrev main_cst_14 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  reducesTo_S32x8192x64_S32x8192_d2 : S32x8192x64.ReducesTo [2] S32x8192
  h_S_ : 0 < S_.numel
  bcast_S_S32x8192 : S_.BroadcastsInDim S32x8192 (![] : Fin 0 → Fin S32x8192.rank)
  bcast_S32x8192_S32x8192x1_0_1 : S32x8192.BroadcastsInDim S32x8192x1 (![0, 1] : Fin 2 → Fin S32x8192x1.rank)
  bcast_S32x8192x1_S32x8192x64_0_1_2 : S32x8192x1.BroadcastsInDim S32x8192x64 (![0, 1, 2] : Fin 3 → Fin S32x8192x64.rank)
  shapeCasts_S32x8192x64_S262144x64 : S32x8192x64.ShapeCasts S262144x64
  bcast_S32_S32x8192_0 : S32.BroadcastsInDim S32x8192 (![0] : Fin 1 → Fin S32x8192.rank)
  shapeCasts_S32x8192_S262144 : S32x8192.ShapeCasts S262144
  bcast_S_S8x64 : S_.BroadcastsInDim S8x64 (![] : Fin 0 → Fin S8x64.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S8 : S_.BroadcastsInDim S8 (![] : Fin 0 → Fin S8.rank)
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  reducesTo_S8x64_S_d0_1 : S8x64.ReducesTo [0, 1] S_
  reducesTo_S8x64_S8_d1 : S8x64.ReducesTo [1] S8
  bcast_S_S8x1 : S_.BroadcastsInDim S8x1 (![] : Fin 0 → Fin S8x1.rank)
  reducesTo_S8x64_S64_d0 : S8x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S8x64_0_1 : S1x64.BroadcastsInDim S8x64 (![0, 1] : Fin 2 → Fin S8x64.rank)
  scatter_S8x64_S262144x1_S262144x64_1_0_0_1_wf : ScatterDims.WF S8x64 S262144x1 S262144x64 [1] [0] [0] 1
  scatter_S8_S262144x1_S262144_n_0_0_1_wf : ScatterDims.WF S8 S262144x1 S262144 [] [0] [0] 1

variable [Facts₀]

def scatter_S8x64_S262144x1_S262144x64_1_0_0_1 : ScatterDims S8x64 S262144x1 S262144x64 where
  updateWindowDims := [1]
  insertedWindowDims := [0]
  scatterDimsToOperandDims := [0]
  indexVectorDim := 1
  wf := scatter_S8x64_S262144x1_S262144x64_1_0_0_1_wf
def scatter_S8_S262144x1_S262144_n_0_0_1 : ScatterDims S8 S262144x1 S262144 where
  updateWindowDims := []
  insertedWindowDims := [0]
  scatterDimsToOperandDims := [0]
  indexVectorDim := 1
  wf := scatter_S8_S262144x1_S262144_n_0_0_1_wf

class Facts : Prop extends Facts₀ where

variable [Facts]
-- ==== Proof.Spec.lean ====
/-
  What both programs compute, as one function of the logits `X : [32, 8192, 64]` and the labels `L : [32]`.

  Per token `(b, s)` the logits over the 64 experts are turned into a softmax row: with `M` the row's maximum,
  `p(b, s, e) = exp (x e − M) / ∑ e', exp (x e' − M)`. A batch row's probabilities are summed over its 8192 tokens
  (`batchSum`). A task `t < 8` collects the batch rows whose label, read as a signed integer, is `t` (`seg`); a
  label outside `0 … 7` belongs to no task and is dropped. The task's token count is `8192` per such batch row
  (`cntR`), and the gate matrix is `seg · cnt` (`gate`, shape `[8, 64]`). From the gate matrix on, both programs
  apply the same chain of host operations — total, normalisation, the two marginals, the logarithm, the weighted
  sum — which is carried here as ONE function (`tail`) and never opened.
-/
import Idealize.ShloMosaic.PureOps.Ideal
import Idealize.ShloMosaic.PureOps.Ideal.Laws
import Idealize.ShloMosaic.Lib.ValueIdx

noncomputable section

namespace MutualInfo

open Idealize.ShloMosaic Idealize.ShloMosaic.ValueIdx

/-! ## Shapes -/

abbrev SLogits : Shape := ⟨3, ![32, 8192, 64]⟩
abbrev SLabels : Shape := ⟨1, ![32]⟩
abbrev SBatch : Shape := ⟨2, ![32, 64]⟩
abbrev SGate : Shape := ⟨2, ![8, 64]⟩
abbrev SScalar : Shape := ⟨0, ![]⟩
abbrev STask : Shape := ⟨1, ![8]⟩
abbrev STaskCol : Shape := ⟨2, ![8, 1]⟩
abbrev SExpert : Shape := ⟨1, ![64]⟩
abbrev SExpertRow : Shape := ⟨2, ![1, 64]⟩

/-! ## The softmax row -/

/-- The value every maximum starts from: the pattern of `−∞`. -/
def negInf : EReal := Ideal.ofBits .f32 0xFF800000#32

/-- A row's maximum, as a fold of `max` from `−∞` over its 64 entries. -/
def rowMax (x : Fin 64 → EReal) : EReal := (Finset.univ : Finset (Fin 64)).fold max negInf x

/-- The softmax of a row at entry `e`: `exp (x e − M)` over the sum of `exp (x e' − M)`, `M` the row's maximum. -/
def softmaxRow (x : Fin 64 → EReal) (e : Fin 64) : EReal :=
  Ideal.div (Ideal.exp (x e - rowMax x)) (∑ e' : Fin 64, Ideal.exp (x e' - rowMax x))

/-- The probability of expert `e` at token `(b, s)`. -/
def prob (X : SLogits.Idx → EReal) (b : Fin 32) (s : Fin 8192) (e : Fin 64) : EReal :=
  softmaxRow (fun e' => X (ix3 b s e')) e

/-- A batch row's probabilities summed over its tokens. -/
def batchSum (X : SLogits.Idx → EReal) (b : Fin 32) (e : Fin 64) : EReal := ∑ s : Fin 8192, prob X b s e

/-- The batch sums as an array `[32, 64]`. -/
def batchArr (X : SLogits.Idx → EReal) : SBatch.Idx → EReal :=
  fun i => batchSum X ⟨(i 0).val, idx2_lt0 i⟩ ⟨(i 1).val, idx2_lt1 i⟩

theorem batchArr_apply (X : SLogits.Idx → EReal) (b : Fin 32) (e : Fin 64) :
    batchArr X (ix2 b e) = batchSum X b e := rfl

/-! ## Tasks -/

/-- Batch row `b` belongs to task `t`: its label, read signed, is `t`. -/
def hit (L : SLabels.Idx → BitVec 32) (b : Fin 32) (t : Fin 8) : Prop := (L (ix1 b)).toInt = (t.val : Int)

instance (L : SLabels.Idx → BitVec 32) (b : Fin 32) (t : Fin 8) : Decidable (hit L b t) :=
  inferInstanceAs (Decidable ((L (ix1 b)).toInt = (t.val : Int)))

/-- The segment sum of an array of batch rows `A : [32, 64]`: the rows of task `t`, added. -/
def segOf (A : SBatch.Idx → EReal) (L : SLabels.Idx → BitVec 32) (t : Fin 8) (e : Fin 64) : EReal :=
  ∑ b : Fin 32, if hit L b t then A (ix2 b e) else 0

/-- The segment sum of the batch sums. -/
def seg (X : SLogits.Idx → EReal) (L : SLabels.Idx → BitVec 32) (t : Fin 8) (e : Fin 64) : EReal :=
  ∑ b : Fin 32, if hit L b t then batchSum X b e else 0

theorem segOf_batchArr (X : SLogits.Idx → EReal) (L : SLabels.Idx → BitVec 32) (t : Fin 8) (e : Fin 64) :
    segOf (batchArr X) L t e = seg X L t e := rfl

/-- Task `t`'s token count: 8192 tokens for each batch row of the task. -/
def cntR (L : SLabels.Idx → BitVec 32) (t : Fin 8) : ℝ := ∑ b : Fin 32, if hit L b t then (8192 : ℝ) else 0

/-- The gate matrix over an array of batch rows: segment sum times token count. -/
def gateOf (A : SBatch.Idx → EReal) (L : SLabels.Idx → BitVec 32) : SGate.Idx → EReal :=
  fun i => segOf A L ⟨(i 0).val, idx2_lt0 i⟩ ⟨(i 1).val, idx2_lt1 i⟩ * ((cntR L ⟨(i 0).val, idx2_lt0 i⟩ : ℝ) : EReal)

/-- The gate matrix `[8, 64]`. -/
def gate (X : SLogits.Idx → EReal) (L : SLabels.Idx → BitVec 32) : SGate.Idx → EReal := gateOf (batchArr X) L

theorem gateOf_apply (A : SBatch.Idx → EReal) (L : SLabels.Idx → BitVec 32) (t : Fin 8) (e : Fin 64) :
    gateOf A L (ix2 t e) = segOf A L t e * ((cntR L t : ℝ) : EReal) := rfl

theorem gate_apply (X : SLogits.Idx → EReal) (L : SLabels.Idx → BitVec 32) (t : Fin 8) (e : Fin 64) :
    gate X L (ix2 t e) = seg X L t e * ((cntR L t : ℝ) : EReal) := rfl

/-! ## The shared chain of host operations after the gate matrix -/

/-- From the gate matrix `g` to the loss: `n = g / (∑ g / 2 + ε)`, the row marginals `∑ₑ n + ε` and the column
    marginals `∑ₜ n + ε`, then `0.01 · −∑ n · log (n / row / col + ε)`, every step the host operation both programs
    print, at the ideal instance. -/
def tail (g : FVec Ideal SGate .f32) : FVec Ideal SScalar .f32 :=
  let n : FVec Ideal SGate .f32 :=
    Host.divf g (broadcastInDim SGate ![] (by decide)
      (addf (Host.divf (Host.reduceAdd (F := Ideal) (axes := [0, 1]) (t := SScalar) g (constant SScalar .f32 0x00000000#32) (by decide) (by decide))
        (constant (F := Ideal) SScalar .f32 0x40000000#32)) (constant (F := Ideal) SScalar .f32 0x38D1B717#32)))
  let rows : FVec Ideal STaskCol .f32 :=
    addf (broadcastInDim STaskCol ![0] (by decide)
        (Host.reduceAdd (F := Ideal) (axes := [1]) (t := STask) n (constant SScalar .f32 0x00000000#32) (by decide) (by decide)))
      (broadcastInDim STaskCol ![] (by decide) (constant (F := Ideal) SScalar .f32 0x38D1B717#32))
  let cols : FVec Ideal SExpertRow .f32 :=
    addf (broadcastInDim SExpertRow ![1] (by decide)
        (Host.reduceAdd (F := Ideal) (axes := [0]) (t := SExpert) n (constant SScalar .f32 0x00000000#32) (by decide) (by decide)))
      (broadcastInDim SExpertRow ![] (by decide) (constant (F := Ideal) SScalar .f32 0x38D1B717#32))
  mulf (constant (F := Ideal) SScalar .f32 0x3C23D70A#32)
    (Host.negf (Host.reduceAdd (F := Ideal) (axes := [0, 1]) (t := SScalar)
      (mulf n (Host.log (addf
        (Host.divf (Host.divf n (broadcastInDim SGate ![0, 1] (by decide) rows)) (broadcastInDim SGate ![0, 1] (by decide) cols))
        (broadcastInDim SGate ![] (by decide) (constant (F := Ideal) SScalar .f32 0x38D1B717#32)))))
      (constant SScalar .f32 0x00000000#32) (by decide) (by decide)))

end MutualInfo

end
-- ==== Proof.KerPayload.lean ====
/-
  The kernel body's arithmetic, read at one index, at the ideal instance.

  At a grid point the body holds a block `x : [8, 1024, 64]` of the logits (8 batch rows, 1024 tokens, 64 experts)
  and the running sums `acc : [8, 64]`. It takes each token's maximum over the experts, exponentiates the shifted
  logits, divides by their sum over the experts — the token's softmax row — and adds the sum over the block's 1024
  tokens to `acc`. So the stored value at `(p, q)` is `acc (p, q) + ∑ r, softmaxRow (x (p, r, ·)) q`.
-/
import proofs.«401561_j10814727652063_1_alg».proof.Proof.Gen.KernelIdeal.Skeleton
import proofs.«401561_j10814727652063_1_alg».proof.Proof.Spec
import Idealize.ShloMosaic.Lib.ValueIdx
import Idealize.ShloMosaic.Lib.Pipeline.Value
import Idealize.ShloMosaic.PureOps.Ideal.Laws

noncomputable section

namespace MutualInfo.Body

open Idealize.ShloMosaic Idealize.ShloMosaic.ValueIdx Cert.KernelIdeal Cert.KernelIdeal.Gen

/-- Putting expert `k` back into the token index `(p, r)` gives `(p, r, k)`. -/
theorem lift_expert (h : S8x1024x64.Reduces [2] S8x1024) (p : Fin 8) (r : Fin 1024) (k : Fin 64) :
    h.lift (ix2 p r) k = ix3 p r k := by
  funext c; apply Fin.ext; fin_cases c <;> rfl

/-- Putting token `k` back into the index `(p, q)` gives `(p, k, q)`. -/
theorem lift_token (h : S8x1024x64.Reduces [1] S8x64) (p : Fin 8) (q : Fin 64) (k : Fin 1024) :
    h.lift (ix2 p q) k = ix3 p k q := by
  funext c; apply Fin.ext; fin_cases c <;> rfl

/-- A token's maximum over the experts is the row maximum of its logits. -/
theorem tokenMax_apply (v : FVec Ideal S8x1024x64 .f32) (h : S8x1024x64.Reduces [2] S8x1024) (hφ : FKind.Formats .f32)
    (hacc : (0xFF800000#32 : BitVec 32) = 0xFF800000#32) (p : Fin 8) (r : Fin 1024) :
    multiReduction .maximumf [2] S8x1024 v 0xFF800000#32 h hφ hacc (ix2 p r) = rowMax (fun e' => v (ix3 p r e')) := by
  refine (Ideal.multiReduction_maximumf_single v 0xFF800000#32 h hφ hacc (ix2 p r)).trans ?_
  unfold rowMax negInf
  exact congrArg (fun f : Fin 64 → EReal => Finset.fold max (Ideal.ofBits .f32 0xFF800000#32) f (Finset.univ : Finset (Fin 64)))
    (funext fun k => congrArg v (lift_expert h p r k))

/-- A sum over the experts at a token. -/
theorem expertSum_apply (v : FVec Ideal S8x1024x64 .f32) (h : S8x1024x64.Reduces [2] S8x1024) (hφ : FKind.Formats .f32)
    (hacc : (0x00000000#32 : BitVec 32) = 0x00000000#32) (p : Fin 8) (r : Fin 1024) :
    multiReduction .add [2] S8x1024 v 0x00000000#32 h hφ hacc (ix2 p r) = ∑ e' : Fin 64, v (ix3 p r e') := by
  refine (Ideal.multiReduction_add_single v 0x00000000#32 h hφ hacc (ix2 p r)).trans ?_
  exact Finset.sum_congr rfl fun k _ => congrArg v (lift_expert h p r k)

/-- A sum over the block's tokens at a batch row and an expert. -/
theorem tokenSum_apply (v : FVec Ideal S8x1024x64 .f32) (h : S8x1024x64.Reduces [1] S8x64) (hφ : FKind.Formats .f32)
    (hacc : (0x00000000#32 : BitVec 32) = 0x00000000#32) (p : Fin 8) (q : Fin 64) :
    multiReduction .add [1] S8x64 v 0x00000000#32 h hφ hacc (ix2 p q) = ∑ r : Fin 1024, v (ix3 p r q) := by
  refine (Ideal.multiReduction_add_single v 0x00000000#32 h hφ hacc (ix2 p q)).trans ?_
  exact Finset.sum_congr rfl fun k _ => congrArg v (lift_token h p q k)

/-- A per-token value `z : [8, 1024]` kept as a column `[8, 1024, 1]` and spread over the 64 experts reads, at
    `(p, r, q)`, `z (p, r)`. -/
theorem perToken_apply {α : Type} (z : S8x1024.Idx → α) (hsc : S8x1024.ShapeCasts S8x1024x1)
    (hb : S8x1024x1.Broadcasts S8x1024x64) (p : Fin 8) (r : Fin 1024) (q : Fin 64) :
    broadcastTo S8x1024x64 (shapeCast S8x1024x1 z hsc) hb (ix3 p r q) = z (ix2 p r) := by
  refine (broadcastTo_apply _ hb (ix3 p r q) (ix3 p r (0 : Fin 1)) (fun a => ?_)).trans ?_
  · match a with
    | ⟨0, _⟩ => rfl
    | ⟨1, _⟩ => rfl
    | ⟨2, _⟩ => rfl
  · refine shapeCast_apply z hsc (ix3 p r (0 : Fin 1)) (ix2 p r) ?_
    rw [Shape.rowMajor_val_two, Shape.rowMajor_val_three]
    show (p.val * 1024 + r.val) = (p.val * 1024 + r.val) * 1 + 0
    omega

/-- The softmax of a block's token row at an index. -/
theorem softmaxBlock_apply (v3 : FVec Ideal S8x1024x64 .f32) (h2 : S8x1024x64.Reduces [2] S8x1024)
    (hsc : S8x1024.ShapeCasts S8x1024x1) (hb : S8x1024x1.Broadcasts S8x1024x64) (hφ : FKind.Formats .f32)
    (hM : (0xFF800000#32 : BitVec 32) = 0xFF800000#32) (hA : (0x00000000#32 : BitVec 32) = 0x00000000#32)
    (p : Fin 8) (r : Fin 1024) (q : Fin 64) :
    divf (exp (subf v3 (broadcastTo S8x1024x64 (shapeCast S8x1024x1 (multiReduction .maximumf [2] S8x1024 v3 0xFF800000#32 h2 hφ hM) hsc) hb)))
      (broadcastTo S8x1024x64 (shapeCast S8x1024x1
        (multiReduction .add [2] S8x1024
          (exp (subf v3 (broadcastTo S8x1024x64 (shapeCast S8x1024x1 (multiReduction .maximumf [2] S8x1024 v3 0xFF800000#32 h2 hφ hM) hsc) hb)))
          0x00000000#32 h2 hφ hA) hsc) hb) (ix3 p r q)
      = softmaxRow (fun e' => v3 (ix3 p r e')) q := by
  have hexp : ∀ e : Fin 64,
      exp (subf v3 (broadcastTo S8x1024x64 (shapeCast S8x1024x1 (multiReduction .maximumf [2] S8x1024 v3 0xFF800000#32 h2 hφ hM) hsc) hb)) (ix3 p r e)
        = Ideal.exp (v3 (ix3 p r e) - rowMax (fun e' => v3 (ix3 p r e'))) := fun e => by
    show Ideal.exp (v3 (ix3 p r e) - broadcastTo S8x1024x64 (shapeCast S8x1024x1 (multiReduction .maximumf [2] S8x1024 v3 0xFF800000#32 h2 hφ hM) hsc) hb (ix3 p r e)) = _
    rw [perToken_apply, tokenMax_apply]
  rw [divf_apply, hexp q, perToken_apply, expertSum_apply]
  unfold softmaxRow
  exact congrArg (Ideal.div _) (Finset.sum_congr rfl fun e _ => hexp e)

/-- THE BODY'S STORED VALUE at `(p, q)`: the running sum plus the block's softmax rows summed over its tokens. -/
theorem pay2_apply (v3 : Vec Ideal S8x1024x64 .f32) (v14 : Vec Ideal S8x64 .f32) (p : Fin 8) (q : Fin 64) :
    k0_pay2 (F := Ideal) v3 v14 (ix2 p q) = v14 (ix2 p q) + ∑ r : Fin 1024, softmaxRow (fun e' => v3 (ix3 p r e')) q := by
  unfold k0_pay2
  rw [shapeCast_self, addf_apply]
  refine congrArg (v14 (ix2 p q) + ·) ?_
  refine (tokenSum_apply _ _ _ _ p q).trans ?_
  exact Finset.sum_congr rfl fun r _ => softmaxBlock_apply v3 _ _ _ _ _ _ p r q

/-- The reset value is zero everywhere. -/
theorem pay1_apply (i : S8x64.Idx) : k0_pay1 (F := Ideal) i = 0 := by
  unfold k0_pay1
  rw [shapeCast_self]
  show Ideal.ofBits .f32 0x00000000#32 = 0
  exact Ideal.ofBits_zero_f32

end MutualInfo.Body

end
-- ==== Proof.KerPieces.lean ====
/-
  What each control case of the kernel body leaves behind, as a value.

  The body has three cases by the position of the grid point in its batch group: the first point of a group
  resets the running sums to zero before adding; a middle point only adds; the last point adds and then copies the
  running sums into the output block. In every case the running sums end at the body's one stored value
  `k0_pay2 x acc` of the input block `x` and of what the running sums held before (zero after a reset), and in the
  last case the output block holds that same value.
-/
import proofs.«401561_j10814727652063_1_alg».proof.Proof.Gen.KernelIdeal.Frame
import Idealize.ShloMosaic.Lib.Pipeline.Value
import Idealize.ShloMosaic.Lib.Tactic

noncomputable section

namespace MutualInfo.Body

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the running sums, holding `acc`, end at the stored value of the block and `acc`. -/
theorem sums_middle (c : Dev nD) (i : grid0.Coords) (a2 : Memref sig .tc .vmem S8x1024x64 .f32) (h2 : a2.IsWhole)
    (a3 : Memref sig .tc .vmem S8x64 .f32) (h3 : a3.IsWhole) (a4 : Memref sig .tc .vmem S8x64 .f32) (h4 : a4.IsWhole)
    (hc0 : ¬cond0_0 i) (hc1 : ¬cond0_1 i) (x0 : Vec F S8x1024x64 .f32) (xs0 : Vec F S8x64 .f32) :
    sout0_B_0 c i a2 h2 a3 h3 a4 h4 hc0 hc1 x0 xs0 = k0_pay2 x0 xs0 := by
  unfold sout0_B_0
  rw [View.read_writes_eq_canon _ _ _ (scover0_B_0 c i a2 h2 a3 h3 a4 h4 hc0 hc1 x0 xs0)]
  unfold kernelRun0_B
  dsimp only
  rw [View.canon_unit_zero hz2]
  simp only [View.readAt_eq_ld, h2.read_unread, h4.read_unread, View.ld_unit_zero (S := S8x1024x64) hz3,
    View.ld_unit_zero (S := S8x64) hz2]

/-- The first point of a group: the running sums are reset, so they end at the stored value of the block and zero. -/
theorem sums_first (c : Dev nD) (i : grid0.Coords) (a2 : Memref sig .tc .vmem S8x1024x64 .f32) (h2 : a2.IsWhole)
    (a3 : Memref sig .tc .vmem S8x64 .f32) (h3 : a3.IsWhole) (a4 : Memref sig .tc .vmem S8x64 .f32) (h4 : a4.IsWhole)
    (hc0 : cond0_0 i) (hc1 : ¬cond0_1 i) (x0 : Vec F S8x1024x64 .f32) :
    sout0_A_0 c i a2 h2 a3 h3 a4 h4 hc0 hc1 x0 = k0_pay2 x0 (k0_pay1 (F := F)) := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S8x64) hz2]
  simp only [View.readAt_eq_ld, h2.read_unread, View.ld_unit_zero (S := S8x1024x64) hz3,
    View.ld_unit_zero (S := S8x64) hz2, View.readCov_unit_zero (S := S8x64) _ hz2]

/-- The last point of a group: the running sums end at the stored value of the block and `acc` … -/
theorem sums_last (c : Dev nD) (i : grid0.Coords) (a2 : Memref sig .tc .vmem S8x1024x64 .f32) (h2 : a2.IsWhole)
    (a3 : Memref sig .tc .vmem S8x64 .f32) (h3 : a3.IsWhole) (a4 : Memref sig .tc .vmem S8x64 .f32) (h4 : a4.IsWhole)
    (hc0 : ¬cond0_0 i) (hc1 : cond0_1 i) (x0 : Vec F S8x1024x64 .f32) (xs0 : Vec F S8x64 .f32) :
    sout0_C_0 c i a2 h2 a3 h3 a4 h4 hc0 hc1 x0 xs0 = k0_pay2 x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz2]
  simp only [View.readAt_eq_ld, h2.read_unread, h4.read_unread, View.ld_unit_zero (S := S8x1024x64) hz3,
    View.ld_unit_zero (S := S8x64) hz2]

/-- … and the output block holds the same value, copied from them. -/
theorem out_last (c : Dev nD) (i : grid0.Coords) (a2 : Memref sig .tc .vmem S8x1024x64 .f32) (h2 : a2.IsWhole)
    (a3 : Memref sig .tc .vmem S8x64 .f32) (h3 : a3.IsWhole) (a4 : Memref sig .tc .vmem S8x64 .f32) (h4 : a4.IsWhole)
    (hc0 : ¬cond0_0 i) (hc1 : cond0_1 i) (x0 : Vec F S8x1024x64 .f32) (xs0 : Vec F S8x64 .f32) :
    out0_C_1 c i a2 h2 a3 h3 a4 h4 hc0 hc1 x0 xs0 = k0_pay2 x0 xs0 := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz2]
  simp only [View.readAt_eq_ld, h2.read_unread, h4.read_unread, View.ld_unit_zero (S := S8x1024x64) hz3,
    View.ld_unit_zero (S := S8x64) hz2, View.readCov_unit_zero (S := S8x64) _ hz2]

end MutualInfo.Body

end
-- ==== Proof.PartialSums.lean ====
/-
  A batch row's sum over its 8192 tokens, built tile by tile.

  The kernel visits a batch row's tokens in eight tiles of 1024. `partialSum X b k e` is the sum of the
  probabilities of expert `e` over the first `k` tiles of row `b`; it starts at zero, grows by one tile's sum per
  step, and after the eighth tile it is the row's whole sum `batchSum X b e`. Rows and tokens are numbered by
  natural numbers here (`probN` is zero outside the array), so that a tile's position is plain arithmetic.
-/
import proofs.«401561_j10814727652063_1_alg».proof.Proof.Spec

noncomputable section

namespace MutualInfo

open Idealize.ShloMosaic Idealize.ShloMosaic.ValueIdx

/-- The probability at batch row `b` and token `n` given as natural numbers; zero outside the array. -/
def probN (X : SLogits.Idx → EReal) (b n : ℕ) (e : Fin 64) : EReal :=
  if h : b < 32 ∧ n < 8192 then prob X ⟨b, h.1⟩ ⟨n, h.2⟩ e else 0

theorem probN_of_lt (X : SLogits.Idx → EReal) {b n : ℕ} (hb : b < 32) (hn : n < 8192) (e : Fin 64) :
    probN X b n e = prob X ⟨b, hb⟩ ⟨n, hn⟩ e := dif_pos ⟨hb, hn⟩

/-- The sum over the first `k` tiles of 1024 tokens of batch row `b`. -/
def partialSum (X : SLogits.Idx → EReal) (b k : ℕ) (e : Fin 64) : EReal :=
  ∑ n ∈ Finset.range (1024 * k), probN X b n e

theorem partialSum_zero (X : SLogits.Idx → EReal) (b : ℕ) (e : Fin 64) : partialSum X b 0 e = 0 := by
  unfold partialSum
  rw [Nat.mul_zero, Finset.range_zero, Finset.sum_empty]

/-- One more tile: the tokens `1024 k … 1024 k + 1023` are added. -/
theorem partialSum_succ (X : SLogits.Idx → EReal) (b k : ℕ) (e : Fin 64) :
    partialSum X b (k + 1) e = partialSum X b k e + ∑ r : Fin 1024, probN X b (1024 * k + r.val) e := by
  unfold partialSum
  rw [Nat.mul_succ, Finset.sum_range_add]
  exact congrArg (_ + ·) (Finset.sum_range fun x => probN X b (1024 * k + x) e)

/-- After the eighth tile the sum is the whole row's. -/
theorem partialSum_full (X : SLogits.Idx → EReal) {b : ℕ} (hb : b < 32) (e : Fin 64) :
    partialSum X b 8 e = batchSum X ⟨b, hb⟩ e := by
  unfold partialSum batchSum
  rw [show 1024 * 8 = 8192 from rfl, Finset.sum_range]
  exact Finset.sum_congr rfl fun s _ => probN_of_lt X hb s.isLt e

end MutualInfo

end
-- ==== Proof.KerAccum.lean ====
/-
  What the kernel's result array holds after the run: the batch sums.

  The 32 grid points come in four groups of eight; group `g` works on batch rows `8g … 8g + 7` and its point number
  `s` on tokens `1024 s … 1024 s + 1023`. By induction on the point, the running sums after point `t = 8g + s` hold,
  at `(p, q)`, the probabilities of expert `q` summed over the first `s + 1` token tiles of batch row `8g + p`. The
  last point of a group copies them into the output block, which is written back to rows `8g … 8g + 7` of the
  result array; the four write-backs cover it, so the array ends holding every batch row's whole sum.
-/
import proofs.«401561_j10814727652063_1_alg».proof.Proof.Gen.KernelIdeal.Frame
import proofs.«401561_j10814727652063_1_alg».proof.Proof.KerPayload
import proofs.«401561_j10814727652063_1_alg».proof.Proof.KerPieces
import proofs.«401561_j10814727652063_1_alg».proof.Proof.PartialSums
import Idealize.ShloMosaic.Lib.Pipeline.Value

noncomputable section

namespace MutualInfo.Body

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The logits as the region finds them. -/
abbrev logits (c : Dev nD) : Vec Ideal S32x8192x64 .f32 := V m c main_arg0
/-- The block of the logits the body works on at point `t`. -/
abbrev block (c : Dev nD) (t : Fin cfg0.N) : Vec Ideal S8x1024x64 .f32 := iblk m c 0 t

/-- Where point `t`'s input block lies: batch group `t / 8`, token tile `t % 8`, all experts. -/
theorem idx_in : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

/-- Where point `t`'s output block lies: batch group `t / 8`, all experts. -/
theorem idx_out : ∀ t : Fin cfg0.N, win0_1.index t (0 : Fin 2) = t.val / 8 ∧ win0_1.index t (1 : Fin 2) = 0 :=
  (by decide +kernel : ∀ t : Fin grid0.N, _)

/-- The block at `(p, r, e)` is the logits at batch row `8 (t / 8) + p`, token `1024 (t % 8) + r`, expert `e`. -/
theorem block_apply (c : Dev nD) (t : Fin cfg0.N) (p : Fin 8) (r : Fin 1024) (e : Fin 64)
    (hb : 8 * (t.val / 8) + p.val < 32) (hn : 1024 * (t.val % 8) + r.val < 8192) :
    block m c t (ix3 p r e) = logits m c (ix3 ⟨8 * (t.val / 8) + p.val, hb⟩ ⟨1024 * (t.val % 8) + r.val, hn⟩ e) := by
  obtain ⟨e0, e1, e2⟩ := idx_in t
  show iblk m c 0 t (ix3 p r e) = V m c main_arg0 _
  unfold iblk
  rw [View.read_apply]
  show V m c main_arg0 _ = V m c main_arg0 _
  congr 1
  funext a
  apply Fin.ext
  match a with
  | ⟨0, _⟩ => show win0_0.index t (0 : Fin 3) * 8 + 1 * p.val = 8 * (t.val / 8) + p.val; rw [e0]; omega
  | ⟨1, _⟩ => show win0_0.index t (1 : Fin 3) * 1024 + 1 * r.val = 1024 * (t.val % 8) + r.val; rw [e1]; omega
  | ⟨2, _⟩ => show win0_0.index t (2 : Fin 3) * 64 + 1 * e.val = e.val; rw [e2]; omega

/-- The block's softmax rows summed over its tokens are one tile of the batch row's sum. -/
theorem tile_eq (c : Dev nD) (t : Fin cfg0.N) (p : Fin 8) (q : Fin 64) :
    ∑ r : Fin 1024, softmaxRow (fun e' => block m c t (ix3 p r e')) q
      = ∑ r : Fin 1024, probN (logits m c) (8 * (t.val / 8) + p.val) (1024 * (t.val % 8) + r.val) q := by
  have hN : t.val < 32 := lt_of_lt_of_eq t.isLt N_0
  refine Finset.sum_congr rfl fun r _ => ?_
  have hr : r.val < 1024 := r.isLt
  have hp : p.val < 8 := p.isLt
  have hb : 8 * (t.val / 8) + p.val < 32 := by omega
  have hn : 1024 * (t.val % 8) + r.val < 8192 := by omega
  rw [probN_of_lt _ hb hn]
  unfold prob
  exact congrArg (fun f => softmaxRow f q) (funext fun e' => block_apply m c t p r e' hb hn)

/-- The body's stored value at point `t` over running sums `acc`: `acc` plus the point's tile. -/
theorem stored_apply (c : Dev nD) (t : Fin cfg0.N) (acc : Vec Ideal S8x64 .f32) (p : Fin 8) (q : Fin 64) :
    k0_pay2 (F := Ideal) (block m c t) acc (ix2 p q)
      = acc (ix2 p q) + ∑ r : Fin 1024, probN (logits m c) (8 * (t.val / 8) + p.val) (1024 * (t.val % 8) + r.val) q :=
  (pay2_apply _ _ p q).trans (congrArg (acc (ix2 p q) + ·) (tile_eq m c t p q))

/-- THE RUNNING SUMS after point `n`: the first `n % 8 + 1` tiles of each batch row of the point's group. -/
theorem sums_eq (c : Dev nD) : ∀ (n : ℕ) (h : n < cfg0.N) (p : Fin 8) (q : Fin 64),
    (outsAt0 m c n h).2 (ix2 p q) = partialSum (logits m c) (8 * (n / 8) + p.val) (n % 8 + 1) q
  | 0, h, p, q => by
    rw [outsAt0_A m c ⟨0, h⟩ rfl (by show ¬(0 % 8 = 7); decide)]
    dsimp only
    rw [sums_first]
    refine (stored_apply m c ⟨0, h⟩ _ p q).trans ?_
    rw [pay1_apply, zero_add]
    show _ = partialSum (logits m c) (8 * (0 / 8) + p.val) (0 + 1) q
    rw [partialSum_succ, partialSum_zero, zero_add]
    rfl
  | n + 1, h, p, q => by
    have hN : n + 1 < 32 := lt_of_lt_of_eq h N_0
    by_cases h0 : (n + 1) % 8 = 0
    · have h1 : ¬(n + 1) % 8 = 7 := by omega
      rw [outsAt0_A m c ⟨n + 1, h⟩ h0 h1]
      dsimp only
      rw [sums_first]
      refine (stored_apply m c ⟨n + 1, h⟩ _ p q).trans ?_
      rw [pay1_apply, zero_add]
      dsimp only
      rw [h0, partialSum_succ, partialSum_zero, zero_add]
    · have ih := sums_eq c n (Nat.lt_of_succ_lt h) p q
      have e1 : n / 8 = (n + 1) / 8 := by omega
      have e2 : n % 8 + 1 = (n + 1) % 8 := by omega
      rw [e1, e2] at ih
      by_cases h1 : (n + 1) % 8 = 7
      · rw [outsAt0_C m c ⟨n + 1, h⟩ h0 h1]
        dsimp only
        rw [sums_last]
        refine (stored_apply m c ⟨n + 1, h⟩ _ p q).trans ?_
        dsimp only
        rw [partialSum_succ]
        exact congrArg (· + _) ih
      · rw [outsAt0_B m c ⟨n + 1, h⟩ h0 h1]
        dsimp only
        rw [sums_middle]
        refine (stored_apply m c ⟨n + 1, h⟩ _ p q).trans ?_
        dsimp only
        rw [partialSum_succ]
        exact congrArg (· + _) ih

/-- At the last point of a group the output block holds the running sums: all eight tiles of each batch row. -/
theorem out_eq (c : Dev nD) (t : Fin cfg0.N) (h7 : t.val % 8 = 7) (p : Fin 8) (q : Fin 64) :
    (outsAt0 m c t.val t.isLt).1 (ix2 p q) = partialSum (logits m c) (8 * (t.val / 8) + p.val) 8 q := by
  have h0 : ¬t.val % 8 = 0 := by omega
  have e : (outsAt0 m c t.val t.isLt).1 = (outsAt0 m c t.val t.isLt).2 := by
    rw [outsAt0_C m c t h0 h7]
    dsimp only
    rw [out_last, sums_last]
  rw [e, sums_eq m c t.val t.isLt p q, h7]

/-- WHAT A GROUP'S LAST POINT WRITES BACK is its block of the batch sums. -/
theorem flushed_eq (c : Dev nD) (t : Fin cfg0.N) (hf : (cfg0.win 1).flush t = true) :
    (dats m 0 c).flushed 1 t = ((cfg0.win 1).blk t).view.read (Elt Ideal) (batchArr (logits m c)) := by
  have h7 : t.val % 8 = 7 := (flush0_1 t).mp hf
  have hN : t.val < 32 := lt_of_lt_of_eq t.isLt N_0
  obtain ⟨o0, o1⟩ := idx_out t
  show (cfg0.win 1).cut (grid0.coords t) ((dats m 0 c).after 1 t) = _
  rw [after0_1]
  funext j
  show (outsAt0 m c t.val t.isLt).1 j = batchArr (logits m c) (((cfg0.win 1).blk t).view.emb j)
  obtain ⟨p, q, rfl⟩ : ∃ (p : Fin 8) (q : Fin 64), j = ix2 p q := ⟨j 0, j 1, eq_ix2 j⟩
  have hp : p.val < 8 := p.isLt
  have hb : 8 * (t.val / 8) + p.val < 32 := by omega
  have hemb : ((cfg0.win 1).blk t).view.emb (ix2 p q) = ix2 (⟨8 * (t.val / 8) + p.val, hb⟩ : Fin 32) q := by
    funext a
    apply Fin.ext
    match a with
    | ⟨0, _⟩ => show win0_1.index t (0 : Fin 2) * 8 + 1 * p.val = 8 * (t.val / 8) + p.val; rw [o0]; omega
    | ⟨1, _⟩ => show win0_1.index t (1 : Fin 2) * 64 + 1 * q.val = q.val; rw [o1]; omega
  rw [hemb, batchArr_apply, out_eq m c t h7 p q, partialSum_full _ hb]

/-- An index of the result array is in point `t`'s block iff each coordinate is in the block's range on its axis. -/
theorem mem_blk (t : Fin cfg0.N) (i : S32x64.Idx) :
    i ∈ ((cfg0.win 1).blk t).view.set ↔ ∀ a : Fin 2, win0_1.index t a * S8x64.size a ≤ (i a).val
      ∧ (i a).val < win0_1.index t a * S8x64.size a + S8x64.size a := by
  show i ∈ ((View.whole main_v0).slice (win0_1.rect t)).set ↔ _
  rw [View.set_slice_whole, Rect.mem_set_unit]
  exact Iff.rfl

/-- Every row of the result array is written back by its group's last point. -/
theorem covered (i : S32x64.Idx) :
    ∃ t : Fin cfg0.N, (cfg0.win 1).flush t = true ∧ i ∈ ((cfg0.win 1).blk t).view.set := by
  have hi0 : (i 0).val < 32 := (i 0).isLt
  have hi1 : (i 1).val < 64 := (i 1).isLt
  have hN : cfg0.N = 32 := N_0
  let t : Fin cfg0.N := ⟨8 * ((i 0).val / 8) + 7, by rw [hN]; omega⟩
  have ht : t.val = 8 * ((i 0).val / 8) + 7 := rfl
  obtain ⟨o0, o1⟩ := idx_out t
  refine ⟨t, (flush0_1 t).mpr (by rw [ht]; omega), ?_⟩
  rw [mem_blk]
  intro a
  match a with
  | ⟨0, _⟩ =>
    show win0_1.index t (0 : Fin 2) * 8 ≤ (i 0).val ∧ (i 0).val < win0_1.index t (0 : Fin 2) * 8 + 8
    rw [o0, ht]; omega
  | ⟨1, _⟩ =>
    show win0_1.index t (1 : Fin 2) * 64 ≤ (i 1).val ∧ (i 1).val < win0_1.index t (1 : Fin 2) * 64 + 64
    rw [o1]; omega

/-- THE RESULT ARRAY after the run: the batch sums of the logits. -/
theorem final_batch (c : Dev nD) :
    (dats m 0 c).arrAt 1 cfg0.N = batchArr (m ((c.tc : Thread nD τ).loc main_arg0)) :=
  ((dats m 0 c).arrAt_eq_of_cover 1 (batchArr (logits m c)) (flushed_eq m c) covered).trans
    (congrArg batchArr (V_main_arg0 m c))

end MutualInfo.Body

end
-- ==== Proof.KerHost.lean ====
/-
  The kernel program's host stretch after its one launch, read as mathematics.

  The launch leaves the batch sums in an array `A : [32, 64]`. Sixteen host operations then build the gate matrix from
  `A` and the labels `L : [32]`: the one-hot matrix `H : [32, 8]`, `H (b, t) = 1` when label `b`, read signed, is the
  task `t`, and `0` otherwise; the product `Hᵀ · A : [8, 64]`, whose entry `(t, e)` is the sum of the rows of `A` that
  belong to task `t` (the segment sum); the column sums of `H` times `8192`, the token count of each task; and the
  entrywise product of the two. Thirty-four more operations apply the shared chain `tail` to that matrix.

  `hostGate A L` names the first sixteen operations' result as one function; `hostGate_eq` says it is the
  specification's `gateOf A L`, entry by entry: a factor `1` or `0` in front of an extended real keeps or drops it
  (`1 · x = x`, `0 · x = 0` for EVERY extended real, so no finiteness is asked of `A`), and the count is a product of a
  sum of reals with a real, computed in the reals. `run` reads the program's run at the result's buffer:
  `tail (gateOf A L)` with `A` the launch's output array, and both arguments as launched.
-/
import proofs.«401561_j10814727652063_1_alg».proof.Proof.Gen.KernelIdeal.Frame
import proofs.«401561_j10814727652063_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace MutualInfo.Ker

open Idealize.ShloMosaic Idealize.ShloMosaic.ValueIdx Idealize.SL.Sem
open Cert.KernelIdeal Cert.KernelIdeal.Gen

/-! ## The host stretch as two functions -/

/-- The one-hot matrix `[32, 8]` of the labels: entry `(b, t)` is the float of the one-bit word that compares label `b`
    with the task word `t`. -/
def oneHot (L : IVec S32 32) : FVec Ideal S32x8 .f32 :=
  uitofp .f32 (cmpi .eq
    (broadcastInDim S32x8 ![0, 1] bcast_S32x1_S32x8_0_1 (broadcastInDim S32x1 ![0] bcast_S32_S32x1_0 L))
    (broadcastInDim S32x8 ![0, 1] bcast_S1x8_S32x8_0_1 (iotaInDim S1x8 32 1)))

/-- The gate matrix `[8, 64]` as the host operations compute it from the array of batch sums `A` and the labels `L`: the
    transposed one-hot matrix times `A` (the segment sums), times the one-hot matrix's column sums scaled by 8192 (the
    token counts) spread along the experts. -/
def hostGate (A : FVec Ideal S32x64 .f32) (L : IVec S32 32) : FVec Ideal S8x64 .f32 :=
  mulf
    (Host.dotGeneral (F := Ideal) dot_S8x32_S32x64_S8x64_1_0_0_1_n_n none
      (transpose S8x32 [1, 0] (oneHot L) transposes_S32x8_S8x32_1_0) A)
    (broadcastInDim S8x64 ![0, 1] bcast_S8x1_S8x64_0_1
      (broadcastInDim S8x1 ![0] bcast_S8_S8x1_0
        (mulf
          (Host.reduceAdd (F := Ideal) (oneHot L) (constant (F := Ideal) S_ .f32 0x00000000#32) reducesTo_S32x8_S8_d0 h_S_)
          (broadcastInDim S8 ![] bcast_S_S8 (constant (F := Ideal) S_ .f32 0x46000000#32)))))

/-! ## The one-hot matrix at an entry -/

/-- The task word `t` (`t < 8`) read signed is `t`. -/
theorem taskWord_toInt : ∀ t : Fin 8, (BitVec.ofNat 32 t.val).toInt = (t.val : Int) := by decide

/-- Label `b` read signed is `t` exactly when the label word IS the task word: reading signed is injective. -/
theorem hit_iff (L : IVec S32 32) (b : Fin 32) (t : Fin 8) : hit L b t ↔ L (ix1 b) = BitVec.ofNat 32 t.val := by
  unfold hit
  constructor
  · intro h
    exact BitVec.eq_of_toInt_eq (h.trans (taskWord_toInt t).symm)
  · intro h
    rw [h]; exact taskWord_toInt t

/-- The labels spread over the tasks: entry `(b, t)` is label `b`. -/
theorem labels_apply (L : IVec S32 32) (h1 : S32.BroadcastsInDim S32x1 ![0]) (h2 : S32x1.BroadcastsInDim S32x8 ![0, 1])
    (b : Fin 32) (t : Fin 8) :
    broadcastInDim S32x8 ![0, 1] h2 (broadcastInDim S32x1 ![0] h1 L) (ix2 b t) = L (ix1 b) := by
  refine (broadcastInDim_apply ![0, 1] h2 _ (ix2 b t) (ix2 b (0 : Fin 1)) fun a => ?_).trans ?_
  · match a with
    | ⟨0, _⟩ => rfl
    | ⟨1, _⟩ => rfl
  · refine broadcastInDim_apply ![0] h1 L (ix2 b (0 : Fin 1)) (ix1 b) fun a => ?_
    match a with
    | ⟨0, _⟩ => rfl

/-- The task words spread over the batch rows: entry `(b, t)` is the word `t`. -/
theorem tasks_apply (h : S1x8.BroadcastsInDim S32x8 ![0, 1]) (b : Fin 32) (t : Fin 8) :
    broadcastInDim S32x8 ![0, 1] h (iotaInDim S1x8 32 1) (ix2 b t) = BitVec.ofNat 32 t.val := by
  refine (broadcastInDim_apply ![0, 1] h _ (ix2 b t) (ix2 (0 : Fin 1) t) fun a => ?_).trans ?_
  · match a with
    | ⟨0, _⟩ => rfl
    | ⟨1, _⟩ => rfl
  · rfl

/-- The one-hot entry `(b, t)` is the real `1` when batch row `b` belongs to task `t`, and `0` otherwise. -/
theorem oneHot_apply (L : IVec S32 32) (b : Fin 32) (t : Fin 8) :
    oneHot L (ix2 b t) = (((if hit L b t then 1 else 0 : ℝ)) : EReal) := by
  have e : oneHot L (ix2 b t) = (((IntOp.cmpi .eq (L (ix1 b)) (BitVec.ofNat 32 t.val)).toNat : ℝ) : EReal) := by
    show (((IntOp.cmpi .eq
      (broadcastInDim S32x8 ![0, 1] bcast_S32x1_S32x8_0_1 (broadcastInDim S32x1 ![0] bcast_S32_S32x1_0 L) (ix2 b t))
      (broadcastInDim S32x8 ![0, 1] bcast_S1x8_S32x8_0_1 (iotaInDim S1x8 32 1) (ix2 b t))).toNat : ℝ) : EReal) = _
    rw [labels_apply, tasks_apply]
  rw [e]
  by_cases hh : hit L b t
  · rw [if_pos hh, (hit_iff L b t).mp hh]
    simp [IntOp.cmpi]
  · rw [if_neg hh]
    have hne : ¬ L (ix1 b) = BitVec.ofNat 32 t.val := fun h => hh ((hit_iff L b t).mpr h)
    simp [IntOp.cmpi, hne]

/-! ## Sums of reals inside the extended reals -/

/-- A finite sum of reals, each read as an extended real, is the sum read as an extended real. -/
theorem coe_sum {ι : Type} (s : Finset ι) (f : ι → ℝ) : (∑ i ∈ s, ((f i : ℝ) : EReal)) = ((∑ i ∈ s, f i : ℝ) : EReal) := by
  classical
  refine Finset.induction_on s ?_ fun a s ha ih => ?_
  · rw [Finset.sum_empty, Finset.sum_empty, EReal.coe_zero]
  · rw [Finset.sum_insert ha, Finset.sum_insert ha, ih, EReal.coe_add]

/-- The pattern of `8192.0` denotes the real `8192`. -/
theorem ofBits_8192 : Ideal.ofBits .f32 0x46000000#32 = ((8192 : ℝ) : EReal) := by
  simp [Ideal.ofBits, Ideal.ieee, -EReal.coe_mul]; norm_num

/-! ## The token counts -/

/-- Inserting the batch row `b` on axis 0 of the task index `t` gives the entry `(b, t)`. -/
theorem lift_row (h : S32x8.Reduces [0] S8) (t : Fin 8) (b : Fin 32) : h.lift (ix1 t) b = ix2 b t := by
  funext a
  match a with
  | ⟨0, _⟩ => exact Fin.ext rfl
  | ⟨1, _⟩ => exact Fin.ext rfl

/-- The column sum of the one-hot matrix at task `t` is the number of batch rows of the task, a real. -/
theorem colSum_apply (L : IVec S32 32) (h' : S32x8.ReducesTo [0] S8) (hu : 0 < S_.numel) (t : Fin 8) :
    Host.reduceAdd (F := Ideal) (oneHot L) (constant (F := Ideal) S_ .f32 0x00000000#32) h' hu (ix1 t)
      = ((∑ b : Fin 32, (if hit L b t then 1 else 0 : ℝ) : ℝ) : EReal) := by
  have h : S32x8.Reduces [0] S8 := by decide
  refine (Ideal.hostReduceAdd_single h' h (oneHot L) _ (ix1 t)).trans ?_
  show Ideal.ofBits .f32 0x00000000#32 + ∑ b : Fin 32, oneHot L (h.lift (ix1 t) b) = _
  rw [Ideal.ofBits_zero_f32, zero_add, ← coe_sum]
  exact Finset.sum_congr rfl fun b _ => by rw [lift_row, oneHot_apply]

/-- The token count of task `t` as the host computes it — the column sum times 8192 — is `cntR L t`. -/
theorem count_apply (L : IVec S32 32) (h' : S32x8.ReducesTo [0] S8) (hu : 0 < S_.numel) (hb : S_.BroadcastsInDim S8 ![])
    (t : Fin 8) :
    mulf (Host.reduceAdd (F := Ideal) (oneHot L) (constant (F := Ideal) S_ .f32 0x00000000#32) h' hu)
        (broadcastInDim S8 ![] hb (constant (F := Ideal) S_ .f32 0x46000000#32)) (ix1 t)
      = ((cntR L t : ℝ) : EReal) := by
  rw [mulf_apply, colSum_apply, broadcastInDim_apply ![] hb _ (ix1 t) ix0 fun a => a.elim0, constant_apply, ofBits_8192,
    ← EReal.coe_mul, Finset.sum_mul]
  unfold cntR
  refine congrArg _ (Finset.sum_congr rfl fun b _ => ?_)
  split_ifs <;> simp

/-- The counts spread along the experts: entry `(t, e)` is the count of task `t`. -/
theorem spread_apply (v : FVec Ideal S8 .f32) (h1 : S8.BroadcastsInDim S8x1 ![0]) (h2 : S8x1.BroadcastsInDim S8x64 ![0, 1])
    (t : Fin 8) (e : Fin 64) :
    broadcastInDim S8x64 ![0, 1] h2 (broadcastInDim S8x1 ![0] h1 v) (ix2 t e) = v (ix1 t) := by
  refine (broadcastInDim_apply ![0, 1] h2 _ (ix2 t e) (ix2 t (0 : Fin 1)) fun a => ?_).trans ?_
  · match a with
    | ⟨0, _⟩ => rfl
    | ⟨1, _⟩ => rfl
  · refine broadcastInDim_apply ![0] h1 v (ix2 t (0 : Fin 1)) (ix1 t) fun a => ?_
    match a with
    | ⟨0, _⟩ => rfl

/-! ## The segment sums -/

/-- The transposed matrix: entry `(t, b)` is the entry `(b, t)`. -/
theorem transposed_apply (x : FVec Ideal S32x8 .f32) (h : S32x8.Transposes [1, 0] S8x32) (t : Fin 8) (b : Fin 32) :
    transpose S8x32 [1, 0] x h (ix2 t b) = x (ix2 b t) := by
  refine transpose_apply [1, 0] x h (ix2 t b) (ix2 b t) fun a => ?_
  match a with
  | ⟨0, _⟩ => rfl
  | ⟨1, _⟩ => rfl

/-- The product `[8, 32] · [32, 64]` contracts the left factor's axis 1 with the right factor's axis 0: the left factor
    is read at the result's row, -/
theorem lhs_axis0 (j : S8x64.Idx) (k : dot_S8x32_S32x64_S8x64_1_0_0_1_n_n.contr.Idx) :
    (dot_S8x32_S32x64_S8x64_1_0_0_1_n_n.lhsIdx j k 0).val = (j 0).val := by
  unfold DotDims.lhsIdx
  rw [dif_neg (show ¬(0 : Fin S8x32.rank) ∈ dot_S8x32_S32x64_S8x64_1_0_0_1_n_n.lhsBatch by decide),
    dif_pos (show (0 : Fin S8x32.rank) ∈ dot_S8x32_S32x64_S8x64_1_0_0_1_n_n.lhsNonContracting by decide)]
  rfl
/-- and at the contraction position on its axis 1; -/
theorem lhs_axis1 (j : S8x64.Idx) (k : dot_S8x32_S32x64_S8x64_1_0_0_1_n_n.contr.Idx) :
    (dot_S8x32_S32x64_S8x64_1_0_0_1_n_n.lhsIdx j k 1).val = (k ⟨0, by decide⟩).val :=
  dot_S8x32_S32x64_S8x64_1_0_0_1_n_n.lhsIdx_val_of_single rfl j k
/-- the right factor at the contraction position on its axis 0, -/
theorem rhs_axis0 (j : S8x64.Idx) (k : dot_S8x32_S32x64_S8x64_1_0_0_1_n_n.contr.Idx) :
    (dot_S8x32_S32x64_S8x64_1_0_0_1_n_n.rhsIdx j k 0).val = (k ⟨0, by decide⟩).val :=
  dot_S8x32_S32x64_S8x64_1_0_0_1_n_n.rhsIdx_val_of_single rfl j k
/-- and at the result's column. -/
theorem rhs_axis1 (j : S8x64.Idx) (k : dot_S8x32_S32x64_S8x64_1_0_0_1_n_n.contr.Idx) :
    (dot_S8x32_S32x64_S8x64_1_0_0_1_n_n.rhsIdx j k 1).val = (j 1).val := by
  unfold DotDims.rhsIdx
  rw [dif_neg (show ¬(1 : Fin S32x64.rank) ∈ dot_S8x32_S32x64_S8x64_1_0_0_1_n_n.rhsBatch by decide),
    dif_pos (show (1 : Fin S32x64.rank) ∈ dot_S8x32_S32x64_S8x64_1_0_0_1_n_n.rhsNonContracting by decide)]
  rfl

/-- At result entry `(t, e)` and contraction position `b` the left factor is read at `(t, b)` -/
theorem lhs_idx (t : Fin 8) (e : Fin 64) (b : Fin 32) :
    dot_S8x32_S32x64_S8x64_1_0_0_1_n_n.lhsIdx (ix2 t e)
        ((contrEquiv1 dot_S8x32_S32x64_S8x64_1_0_0_1_n_n 32 rfl rfl).symm b) = ix2 t b := by
  funext a
  match a with
  | ⟨0, _⟩ => exact Fin.ext (lhs_axis0 _ _)
  | ⟨1, _⟩ => exact Fin.ext ((lhs_axis1 _ _).trans (contrEquiv1_symm_val dot_S8x32_S32x64_S8x64_1_0_0_1_n_n 32 rfl rfl b))
/-- and the right factor at `(b, e)`. -/
theorem rhs_idx (t : Fin 8) (e : Fin 64) (b : Fin 32) :
    dot_S8x32_S32x64_S8x64_1_0_0_1_n_n.rhsIdx (ix2 t e)
        ((contrEquiv1 dot_S8x32_S32x64_S8x64_1_0_0_1_n_n 32 rfl rfl).symm b) = ix2 b e := by
  funext a
  match a with
  | ⟨0, _⟩ => exact Fin.ext ((rhs_axis0 _ _).trans (contrEquiv1_symm_val dot_S8x32_S32x64_S8x64_1_0_0_1_n_n 32 rfl rfl b))
  | ⟨1, _⟩ => exact Fin.ext (rhs_axis1 _ _)

/-- The transposed one-hot matrix times the batch sums, at `(t, e)`: each batch row of task `t` contributes its entry once
    (`1 · x = x`), every other row nothing (`0 · x = 0`), for every extended real `x`. -/
theorem seg_apply (A : FVec Ideal S32x64 .f32) (L : IVec S32 32) (h : S32x8.Transposes [1, 0] S8x32) (t : Fin 8) (e : Fin 64) :
    Host.dotGeneral (F := Ideal) dot_S8x32_S32x64_S8x64_1_0_0_1_n_n none (transpose S8x32 [1, 0] (oneHot L) h) A (ix2 t e)
      = segOf A L t e := by
  simp only [Host.dotGeneral]
  rw [Ideal.dotGeneral_apply, ← Equiv.sum_comp (contrEquiv1 dot_S8x32_S32x64_S8x64_1_0_0_1_n_n 32 rfl rfl).symm]
  unfold segOf
  refine Finset.sum_congr rfl fun b _ => ?_
  rw [lhs_idx, rhs_idx, transposed_apply, oneHot_apply]
  split_ifs <;> simp

/-! ## The gate matrix -/

/-- The gate matrix the host operations compute is the specification's: segment sum times token count, entry by entry. -/
theorem hostGate_eq (A : FVec Ideal S32x64 .f32) (L : IVec S32 32) : hostGate A L = MutualInfo.gateOf A L := by
  funext i
  obtain ⟨t, e, rfl⟩ : ∃ (t : Fin 8) (e : Fin 64), i = ix2 t e := ⟨i 0, i 1, eq_ix2 i⟩
  rw [gateOf_apply]
  unfold hostGate
  rw [mulf_apply, seg_apply, spread_apply, count_apply]

/-! ## The host stretch read off the program -/

/-- From any buffer contents `W`, the sixteen operations up to the gate matrix leave `hostGate` of `W`'s batch-sum array
    and labels in the gate matrix's buffer. -/
theorem gate_read (W : Valuation τ sig (Elt Ideal)) :
    StableHlo.after (hostOps1 ++ hostOps1_1.take 10) W (Proc.devRef .tc main_v9)
      = hostGate (W (Proc.devRef .tc main_v0)) (W (Proc.devRef .tc main_arg1)) := by
  simp only [hostOps1, hostOps1_1, List.take_succ_cons, List.take_zero, List.cons_append, List.nil_append]
  after_results
  rfl

/-- From any buffer contents `W`, the thirty-four operations after the gate matrix leave the shared chain `tail` of
    `W`'s gate matrix in the result's buffer. -/
theorem tail_read (W : Valuation τ sig (Elt Ideal)) :
    StableHlo.after (hostOps1_1.drop 10) W (Proc.devRef .tc main_v33)
      = MutualInfo.tail (W (Proc.devRef .tc main_v9)) := by
  simp only [hostOps1_1, List.drop_succ_cons, List.drop_zero]
  after_results_simp
  rfl

/-- The whole stretch, from any contents: the result's buffer ends at `tail (hostGate A L)`. -/
theorem stretch_read (W : Valuation τ sig (Elt Ideal)) :
    StableHlo.after ([hostOps1, hostOps1_1] : List (List (HloOp τ sig (Elt Ideal)))).flatten W (Proc.devRef .tc main_v33)
      = MutualInfo.tail (hostGate (W (Proc.devRef .tc main_v0)) (W (Proc.devRef .tc main_arg1))) := by
  have e : ([hostOps1, hostOps1_1] : List (List (HloOp τ sig (Elt Ideal)))).flatten
      = (hostOps1 ++ hostOps1_1.take 10) ++ hostOps1_1.drop 10 := by
    rw [List.flatten_cons, List.flatten_cons, List.flatten_nil, List.append_nil, List.append_assoc, List.take_append_drop]
  rw [e, StableHlo.after_append, tail_read, gate_read]

variable (m : (ℓ : Loc nD τ sig) → Buf (Elt Ideal) ℓ) (ρ : Dev nD → PrngReg)

/-- What the region leaves in the batch-sum array's buffer is the pipeline's array 1. -/
theorem exit_main_v0 (c : Dev nD) :
    Pipeline.withArrays spec0 c (V0 m c) (fun w => (dats m 0 c).arrAt w cfg0.N) (Proc.devRef .tc main_v0)
      = (dats m 0 c).arrAt 1 cfg0.N :=
  Pipeline.withArrays_arr spec0 launch0.win.arr_inj c (V0 m c) (fun w => (dats m 0 c).arrAt w cfg0.N) 1

/-- The labels' buffer is no array of the pipeline: the region leaves it as launched. -/
theorem exit_main_arg1 (c : Dev nD) :
    Pipeline.withArrays spec0 c (V0 m c) (fun w => (dats m 0 c).arrAt w cfg0.N) (Proc.devRef .tc main_arg1)
      = m ((c.tc : Thread nD τ).loc main_arg1) :=
  (Pipeline.withArrays_of_ne spec0 c (V0 m c) (fun w => (dats m 0 c).arrAt w cfg0.N) main_arg1
    (by exact (by decide : ∀ w, Pipeline.arrRef spec0 w ≠ main_arg1))).trans (V_main_arg1 m c)

/-- The result's buffer after the host stretch, read off the frame run's post. -/
theorem result_read (c : Dev nD) :
    Pipeline.afterTail₀ cfgs (dats m) 0 (V0 m) [hostOps1, hostOps1_1] c main_v33
      = MutualInfo.tail (hostGate ((dats m 0 c).arrAt 1 cfg0.N) (m ((c.tc : Thread nD τ).loc main_arg1))) := by
  unfold Pipeline.afterTail₀
  refine (stretch_read _).trans ?_
  rw [exit_main_v0, exit_main_arg1]

/-! ## The run -/

/-- Every weakly fair execution of the kernel program from memory `m` terminates with the result's buffer at
    `tail (gateOf A L)` — `A` what the launch leaves in the batch-sum array, `L` the labels as launched — and both
    arguments unchanged. -/
theorem run : θ_run (defs (F := Ideal)) (onTc (τ := τ) (main (F := Ideal))) ⟨m, fun _ => 0, ρ⟩ (fun r => ∀ c : Dev nD,
      r.2.mem ((c.tc : Thread nD τ).loc main_v33)
        = MutualInfo.tail (MutualInfo.gateOf ((dats m 0 c).arrAt 1 cfg0.N) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v33 (Pipeline.mem_restRefs_of main_v33 (by decide) (by decide))).trans
        ((result_read m c).trans (congrArg MutualInfo.tail (hostGate_eq _ _))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end MutualInfo.Ker

end
-- ==== Proof.LibScatterRows.lean ====
/-
  The host's accumulating scatter (a segment sum) read at an index, at the ideal instance.

  Operand `[N, C]`, scatter indices `[E, 1]` (one row number per update row), updates `[E, C]`:
  update row `e` is added, column by column, onto operand row `idx[e, 0]` read as a SIGNED integer,
  and is dropped when that number is not a row of the operand. So element `(n, j)` of the result is
  the operand's plus the sum, over the update rows `e` whose index is `n`, of `upd[e, j]`.
  The flat form (operand `[N]`, updates `[E]`) is the same with no column.
-/
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

/-- The dimension numbers of a row scatter: operand `[N, C]`, indices `[E, 1]`, updates `[E, C]`;
    the updates' axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: operand `[N]`, indices `[E, 1]`, updates `[E]`. -/
abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The update rows that land on operand row `n`: those whose index word, read signed, is `n`. -/
def rowsOf {N E w : Nat} (idx : IVec ⟨2, ![E, 1]⟩ w) (n : Fin N) : Finset (Fin E) :=
  Finset.univ.filter fun e => (idx (ix2 e (0 : Fin 1))).toInt = (n.val : Int)

/-- An update index lands on operand index `i` exactly when, on every axis, its start plus its
    window coordinate is `i`'s coordinate (being inside the operand is then automatic). -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

/-- On the scattered axis the start is the update row's index word, read signed. -/
private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

/-- The column axis is not a scattered one: its start is `0`. -/
private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

/-- The scattered axis is an inserted one: its window coordinate is `0`. -/
private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

/-- On the column axis the window coordinate is the update's column. -/
private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

/-- Update element `(e, j')` lands on operand element `(n, j)` exactly when row `e`'s index word,
    read signed, is `n` and the columns agree. -/
private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

/-- THE ROW SCATTER READ AT `(n, j)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

/-- On the one (scattered) axis the start is the update's index word, read signed. -/
private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

/-- The one axis is an inserted one: its window coordinate is `0`. -/
private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

/-- Update element `e` lands on operand element `n` exactly when its index word, read signed, is `n`. -/
private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

/-- THE FLAT SCATTER READ AT `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.RefGate.lean ====
/-
  The reference program, read against the specification.

  Its first stages compute, token by token, the softmax row of the logits (`prob`): the row's maximum, the
  exponentials of the differences, their sum, the quotient. The rows are laid out one per token, `r = 8192 · b + s`,
  and added by label into an `[8, 64]` array: a segment sum over the tokens, which regrouped by batch row is the
  segment sum of the batch sums (`seg`). The same scatter of ones counts a task's tokens, `8192` per batch row of
  the task (`cntR`). Their product is the gate matrix (`ref_gate`); what follows it is the shared chain, stage by
  stage (`ref_tail`).
-/
import proofs.«401561_j10814727652063_1_alg».proof.Proof.Gen.ReferenceIdeal.Read
import proofs.«401561_j10814727652063_1_alg».proof.Proof.Spec
import proofs.«401561_j10814727652063_1_alg».proof.Proof.LibScatterRows
import Mathlib.Logic.Equiv.Fin.Basic
import Mathlib.Data.Fintype.BigOperators
import Mathlib.Data.EReal.Basic

noncomputable section

namespace MutualInfo.Ref

open Idealize.ShloMosaic Idealize.ShloMosaic.ValueIdx Idealize.ShloMosaic.SegSum
open Cert.ReferenceIdeal Cert.ReferenceIdeal.Gen Cert.ReferenceIdeal.Read

/-- The logits as the reference takes them: a function of an index `[32, 8192, 64]` into the extended reals. -/
abbrev Logits : Type := (⟨S32x8192x64, .f32⟩ : BufTy).Contents (Elt Ideal)
/-- The labels as the reference takes them: a function of an index `[32]` into 32-bit words. -/
abbrev Labels : Type := (⟨S32, .i32⟩ : BufTy).Contents (Elt Ideal)

/-! ## Sums over the token rows -/

/-- The batch row of token row `r = 8192 · b + s`. -/
abbrev rowB (r : Fin 262144) : Fin 32 := ⟨r.val / 8192, by have := r.isLt; omega⟩
/-- The position of token row `r = 8192 · b + s` in its batch row. -/
abbrev rowS (r : Fin 262144) : Fin 8192 := ⟨r.val % 8192, Nat.mod_lt _ (by decide)⟩

/-- A sum over the `262144` token rows is the double sum over batch rows and positions. -/
theorem sum_rows {M : Type*} [AddCommMonoid M] (f : Fin 32 → Fin 8192 → M) :
    ∑ r : Fin 262144, f (rowB r) (rowS r) = ∑ b : Fin 32, ∑ s : Fin 8192, f b s := by
  rw [← Fintype.sum_prod_type']
  refine (Fintype.sum_equiv (finProdFinEquiv (m := 32) (n := 8192)) (fun p => f p.1 p.2)
    (fun r : Fin 262144 => f (rowB r) (rowS r)) fun p => ?_).symm
  have h1 := p.1.isLt
  have h2 := p.2.isLt
  have hv : (finProdFinEquiv p : Fin (32 * 8192)).val = p.2.val + 8192 * p.1.val := rfl
  have eb : rowB (finProdFinEquiv p) = p.1 := Fin.ext (by show (finProdFinEquiv p : Fin (32 * 8192)).val / 8192 = _; omega)
  have es : rowS (finProdFinEquiv p) = p.2 := Fin.ext (by show (finProdFinEquiv p : Fin (32 * 8192)).val % 8192 = _; omega)
  rw [eb, es]

/-- The coercion of the reals into the extended reals goes through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The softmax row -/

/-- The pattern every maximum starts from is the least extended real. -/
theorem negInf_eq_bot : negInf = ⊥ := by simp [negInf, Ideal.ofBits, Ideal.ieee]

/-- The reduction over the experts' axis is the fold of `max` from `−∞` over the row: the row's maximum. -/
theorem v0_apply (X : Logits) (b : Fin 32) (s : Fin 8192) :
    val_main_v0 (F := Ideal) X (ix2 b s) = rowMax (fun e' => X (ix3 b s e')) := by
  unfold val_main_v0
  rw [Host.reduce_eq_fold_single (FloatOps.maximumf (F := Ideal) (φ := .f32)) X (val_main_cst (F := Ideal))
    reducesTo_S32x8192x64_S32x8192_d2 (by decide : S32x8192x64.Reduces [2] S32x8192) h_S_ (ix2 b s)]
  show Finset.fold max (Ideal.ofBits .f32 0xFF800000#32)
      (fun k : Fin 64 => X ((by decide : S32x8192x64.Reduces [2] S32x8192).lift (ix2 b s) k)) Finset.univ = _
  unfold rowMax negInf
  refine congrArg (fun g : Fin 64 → EReal => Finset.fold max (Ideal.ofBits .f32 0xFF800000#32) g Finset.univ) ?_
  funext k
  exact congrArg X (funext fun a => Fin.ext (by match a with | ⟨0, _⟩ => rfl | ⟨1, _⟩ => rfl | ⟨2, _⟩ => rfl))

/-- The maximum broadcast back over the experts: one more `max` with `−∞` changes nothing. -/
theorem v4_apply (X : Logits) (b : Fin 32) (s : Fin 8192) (e : Fin 64) :
    val_main_v4 (F := Ideal) X (ix3 b s e) = rowMax (fun e' => X (ix3 b s e')) := by
  have hidx : idx_main_v3 (idx_main_v4 (ix3 b s e)) = ix2 b s :=
    funext fun a => by match a with | ⟨0, _⟩ => rfl | ⟨1, _⟩ => rfl
  rw [val_main_v4_apply, val_main_v3_apply, hidx, val_main_v2_apply, val_main_v1_apply, val_main_cst_0_apply, v0_apply]
  show max negInf _ = _
  rw [negInf_eq_bot]
  exact max_eq_right bot_le

/-- The exponential of the difference to the row's maximum. -/
theorem v6_apply (X : Logits) (b : Fin 32) (s : Fin 8192) (e : Fin 64) :
    val_main_v6 (F := Ideal) X (ix3 b s e)
      = Ideal.exp (X (ix3 b s e) - rowMax (fun e' => X (ix3 b s e'))) := by
  rw [val_main_v6_apply, val_main_v5_apply, v4_apply]
  rfl

/-- The row's sum of exponentials, broadcast back over the experts. -/
theorem v9_apply (X : Logits) (b : Fin 32) (s : Fin 8192) (e : Fin 64) :
    val_main_v9 (F := Ideal) X (ix3 b s e)
      = ∑ e' : Fin 64, Ideal.exp (X (ix3 b s e') - rowMax (fun e'' => X (ix3 b s e''))) := by
  have hidx : idx_main_v8 (idx_main_v9 (ix3 b s e)) = ix2 b s :=
    funext fun a => by match a with | ⟨0, _⟩ => rfl | ⟨1, _⟩ => rfl
  rw [val_main_v9_apply, val_main_v8_apply, hidx, val_main_v7_apply, val_main_cst_1_apply]
  show Ideal.ofBits .f32 0x00000000#32 + _ = _
  rw [Ideal.ofBits_zero_f32, zero_add]
  refine Finset.sum_congr rfl fun k _ => ?_
  have hk : idx_main_v7 (ix2 b s) k = ix3 b s k :=
    funext fun a => by match a with | ⟨0, _⟩ => rfl | ⟨1, _⟩ => rfl | ⟨2, _⟩ => rfl
  rw [hk, v6_apply]

/-- The quotient is the softmax: the probability of expert `e` at token `(b, s)`. -/
theorem v10_apply (X : Logits) (b : Fin 32) (s : Fin 8192) (e : Fin 64) :
    val_main_v10 (F := Ideal) X (ix3 b s e) = prob X b s e := by
  rw [val_main_v10_apply, v6_apply, v9_apply]
  rfl

/-- Token row `r` of the reshaped softmax is the softmax row of token `(b, s)`, `r = 8192 · b + s`. -/
theorem v11_apply (X : Logits) (r : Fin 262144) (e : Fin 64) :
    val_main_v11 (F := Ideal) X (ix2 r e) = prob X (rowB r) (rowS r) e := by
  have hr := r.isLt
  have he := e.isLt
  have hidx : idx_main_v11 (ix2 r e) = ix3 (rowB r) (rowS r) e :=
    funext fun a => Fin.ext (by
      match a with
      | ⟨0, _⟩ => show (r.val * 64 + e.val) / 524288 = r.val / 8192; omega
      | ⟨1, _⟩ => show (r.val * 64 + e.val) / 64 % 8192 = r.val % 8192; omega
      | ⟨2, _⟩ => show (r.val * 64 + e.val) % 64 = e.val; omega)
  rw [val_main_v11_apply, hidx, v10_apply]

/-! ## The labels, one per token row -/

/-- Token row `r = 8192 · b + s` carries the label of batch row `b` (the index column of the first scatter). -/
theorem v15_apply (L : Labels) (r : Fin 262144) :
    val_main_v15 (F := Ideal) L (ix2 r (0 : Fin 1)) = L (ix1 (rowB r)) := by
  rw [val_main_v15_apply, val_main_v13_apply, val_main_v12_apply]
  exact congrArg L (funext fun a => by match a with | ⟨0, _⟩ => rfl)

/-- The same for the index column of the second scatter. -/
theorem v19_apply (L : Labels) (r : Fin 262144) :
    val_main_v19 (F := Ideal) L (ix2 r (0 : Fin 1)) = L (ix1 (rowB r)) := by
  rw [val_main_v19_apply, val_main_v13_apply, val_main_v12_apply]
  exact congrArg L (funext fun a => by match a with | ⟨0, _⟩ => rfl)

/-! ## The segment sum -/

/-- The first scatter adds the softmax rows of the tokens whose label is `t` onto row `t` of a zero array: summed
    token by token and regrouped by batch row, the segment sum of the batch sums. -/
theorem v16_apply (X : Logits) (L : Labels) (t : Fin 8) (e : Fin 64) :
    val_main_v16 (F := Ideal) X L (ix2 t e) = seg X L t e := by
  unfold val_main_v16 Host.scatterAdd
  rw [Ideal.hostScatterAdd_def]
  refine (hostScatterAdd_rows_apply (N := 8) (E := 262144) (C := 64)
    Gen.scatter_S8x64_S262144x1_S262144x64_1_0_0_1_wf (val_main_v14 (F := Ideal)) (val_main_v15 (F := Ideal) L)
    (val_main_v11 (F := Ideal) X) t e).trans ?_
  rw [val_main_v14_apply, val_main_cst_2_apply]
  show Ideal.ofBits .f32 0x00000000#32 + _ = _
  rw [Ideal.ofBits_zero_f32, zero_add]
  unfold rowsOf
  rw [Finset.sum_filter]
  simp only [v15_apply, v11_apply]
  rw [sum_rows (fun b s => if (L (ix1 b)).toInt = (t.val : Int) then prob X b s e else 0)]
  unfold seg batchSum
  refine Finset.sum_congr rfl fun b _ => ?_
  by_cases h : hit L b t
  · rw [if_pos h]; exact Finset.sum_congr rfl fun s _ => if_pos h
  · rw [if_neg h]; exact Finset.sum_eq_zero fun s _ => if_neg h

/-! ## The token counts -/

/-- The pattern of the ones the second scatter adds is the real number one. -/
theorem one_f32 : Ideal.ofBits .f32 0x3F800000#32 = ((1 : ℝ) : EReal) := by
  simp [Ideal.ofBits, Ideal.ieee, -EReal.coe_mul]; norm_num

/-- The second scatter adds a one for each token whose label is `t` onto entry `t` of a zero array: `8192` for each
    batch row of the task, a real number. -/
theorem v20_apply (L : Labels) (t : Fin 8) :
    val_main_v20 (F := Ideal) L (ix1 t) = ((cntR L t : ℝ) : EReal) := by
  unfold val_main_v20 Host.scatterAdd
  rw [Ideal.hostScatterAdd_def]
  refine (hostScatterAdd_flat_apply (N := 8) (E := 262144)
    Gen.scatter_S8_S262144x1_S262144_n_0_0_1_wf (val_main_v18 (F := Ideal)) (val_main_v19 (F := Ideal) L)
    (val_main_v17 (F := Ideal)) t).trans ?_
  rw [val_main_v18_apply, val_main_cst_4_apply]
  show Ideal.ofBits .f32 0x00000000#32 + _ = _
  rw [Ideal.ofBits_zero_f32, zero_add]
  unfold rowsOf
  rw [Finset.sum_filter]
  simp only [v19_apply, val_main_v17_apply, val_main_cst_3_apply, Ideal.ofBits_def, one_f32]
  rw [sum_rows (fun b _ => if (L (ix1 b)).toInt = (t.val : Int) then ((1 : ℝ) : EReal) else 0)]
  unfold cntR
  rw [coe_sum]
  refine Finset.sum_congr rfl fun b _ => ?_
  by_cases h : hit L b t
  · rw [if_pos h]
    refine (Finset.sum_congr rfl fun s _ => if_pos h).trans ?_
    rw [← coe_sum]
    simp
  · rw [if_neg h, EReal.coe_zero]; exact Finset.sum_eq_zero fun s _ => if_neg h

/-- The counts broadcast over the experts. -/
theorem v22_apply (L : Labels) (t : Fin 8) (e : Fin 64) :
    val_main_v22 (F := Ideal) L (ix2 t e) = ((cntR L t : ℝ) : EReal) := by
  have hidx : idx_main_v21 (idx_main_v22 (ix2 t e)) = ix1 t :=
    funext fun a => by match a with | ⟨0, _⟩ => rfl
  rw [val_main_v22_apply, val_main_v21_apply, hidx, v20_apply]

/-! ## The gate matrix and the chain after it -/

/-- The reference's gate matrix is the specification's: segment sum times token count. -/
theorem ref_gate (X : Logits) (L : Labels) : val_main_v23 (F := Ideal) X L = gate X L := by
  funext i
  obtain ⟨t, e, rfl⟩ : ∃ (t : Fin 8) (e : Fin 64), i = ix2 t e := ⟨i 0, i 1, eq_ix2 i⟩
  rw [gate_apply, val_main_v23_apply, v16_apply, v22_apply]
  rfl

/-- From the gate matrix on, the reference's stages are the shared chain, operation for operation. -/
theorem ref_tail (X : Logits) (L : Labels) :
    val_main_v47 (F := Ideal) X L = tail (val_main_v23 (F := Ideal) X L) := by
  unfold val_main_v47 val_main_v46 val_main_v45 val_main_v44 val_main_v43 val_main_v42 val_main_v41 val_main_v40
    val_main_v39 val_main_v38 val_main_v37 val_main_v36 val_main_v35 val_main_v34 val_main_v33 val_main_v32
    val_main_v31 val_main_v30 val_main_v29 val_main_v28 val_main_v27 val_main_v26 val_main_v25 val_main_v24
    val_main_cst_5 val_main_cst_6 val_main_cst_7 val_main_cst_8 val_main_cst_9 val_main_cst_10 val_main_cst_11
    val_main_cst_12 val_main_cst_13 val_main_cst_14
  generalize val_main_v23 (F := Ideal) X L = g
  rfl

end MutualInfo.Ref

end
-- ==== Proof.lean ====
/-
  The mutual-information routing loss: a Pallas kernel against its jnp reference, over the extended reals.

  Both programs take router logits `X : [32, 8192, 64]` and task labels `L : [32]` and return one number. Each
  first forms, per token, the softmax over the 64 experts. The KERNEL sums the softmax rows of a batch row over
  its tokens inside the pallas_call (eight tiles of 1024 tokens accumulated in a scratch block, four groups of
  eight batch rows), then on the host multiplies by a one-hot matrix of the labels to add up the batch rows of each
  of the 8 tasks, and counts a task's tokens as 8192 times its number of batch rows. The REFERENCE repeats every
  label over its 8192 tokens and adds every token's softmax row, and a one, onto its task's row by an accumulating
  scatter. A label outside `0 … 7` matches no one-hot column and lands on no scatter row, so it is dropped by
  both. As sums over the extended reals (addition is commutative and associative there, and `0 · x = 0`,
  `1 · x = x` for every `x`) the two gate matrices `seg · count` are the same function of `X` and `L`
  (`MutualInfo.gate`); no finiteness of the logits is used. From the gate matrix on the programs apply the same
  chain of host operations, carried as one function (`MutualInfo.tail`) that is never opened.

  The three frames are the generated frame runs (the reference's is its generated run with the result dropped);
  the ideal pass rewrote nothing, so `preserves` is trivial.
-/
import proofs.«401561_j10814727652063_1_alg».proof.Defs
import proofs.«401561_j10814727652063_1_alg».proof.Proof.Gen.Kernel
import proofs.«401561_j10814727652063_1_alg».proof.Proof.Gen.Kernel.Frame
import proofs.«401561_j10814727652063_1_alg».proof.Proof.Gen.KernelIdeal
import proofs.«401561_j10814727652063_1_alg».proof.Proof.Gen.KernelIdeal.Frame
import proofs.«401561_j10814727652063_1_alg».proof.Proof.Gen.ReferenceIdeal
import proofs.«401561_j10814727652063_1_alg».proof.Proof.Gen.Pre_finite_inputs
import proofs.«401561_j10814727652063_1_alg».proof.Proof.Gen.ReferenceIdeal.Run
import proofs.«401561_j10814727652063_1_alg».proof.Proof.Gen.ReferenceIdeal.Read
import proofs.«401561_j10814727652063_1_alg».proof.Proof.Spec
import proofs.«401561_j10814727652063_1_alg».proof.Proof.KerAccum
import proofs.«401561_j10814727652063_1_alg».proof.Proof.KerHost
import proofs.«401561_j10814727652063_1_alg».proof.Proof.RefGate
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- At the ideal instance the kernel's result is the shared chain applied to the gate matrix of its arguments
    (the pallas_call leaves the batch sums, the host stretch after it turns them into the gate matrix), and so is
    the reference's, of arguments that agree. -/
theorem algebraic : Cert.algebraic_KernelIdeal_ReferenceIdeal := by
  intro m ρ m' ρ' _ hagree
  refine ⟨fun c => MutualInfo.tail (MutualInfo.gate
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩) (MutualInfo.Ker.run m ρ)
    rw [MutualInfo.Body.final_batch m c]
    rfl
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, MutualInfo.Ref.ref_tail, MutualInfo.Ref.ref_gate, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
